-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S800000 .f32) (main_arg3 : FVec F S256x128 .f32) (main_arg4 : FVec F S128 .f32) (main_arg5 : FVec F S128x128 .f32) (main_arg6 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S50000x128 : Shape := ⟨2, ![50000, 128]⟩
abbrev S2000x256 : Shape := ⟨2, ![2000, 256]⟩
abbrev S2000x128 : Shape := ⟨2, ![2000, 128]⟩
abbrev S1x128 : Shape := ⟨2, ![1, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩

abbrev nBuf : Space → Nat
  | .hbm => 29
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S50000x128 : Shape := ⟨2, ![50000, 128]⟩
abbrev S1x128 : Shape := ⟨2, ![1, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩

abbrev nBuf : Space → Nat
  | .hbm => 38
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  WHAT BOTH PROGRAMS COMPUTE, as one function of the seven argument arrays, in three stages.

  * `dense1 f Wp bp`: the node projection `f · Wp + bp` — one product of the `[50000, 256]` features with the
    `[256, 128]` weights, the bias vector spread over the rows.
  * `aggregate X e w`: message passing over the 800000 edges `e = (src, dst)` with weights `w`. A negative source index
    is wrapped by adding 50000; edge `j` carries row `src j` of `X` scaled by `w j`; the messages are added into the rows
    `dst j` of a zero `[50000, 128]` array. This stage is the SAME host operations in both programs, so it is never
    opened: whatever it does to `X`, it does it on both sides.
  * `dense2 A Wa ba`: the output layer `max (A · Wa + ba) 0`.

  `out` is their composition, and `run_out` restates the reference's generated run with its result at `out` of the
  launch contents of the arguments.
-/
import proofs.«168021_j88330297409788_1_alg».proof.Proof.Gen.ReferenceIdeal.Run

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

/-- The node projection: features times weights, plus the bias vector on every row. -/
def dense1 (f : (⟨S50000x256, .f32⟩ : BufTy).Contents (Elt F)) (Wp : (⟨S256x128, .f32⟩ : BufTy).Contents (Elt F))
    (bp : (⟨S128, .f32⟩ : BufTy).Contents (Elt F)) : (⟨S50000x128, .f32⟩ : BufTy).Contents (Elt F) :=
  addf (Host.dotGeneral dot_S50000x256_S256x128_S50000x128_1_0_0_1_n_n none f Wp)
    (broadcastInDim S50000x128 ![0, 1] bcast_S1x128_S50000x128_0_1 (broadcastInDim S1x128 ![1] bcast_S128_S1x128_1 bp))

/-- The source row of every edge: row 0 of the edge array as a vector. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Message passing: gather the (wrapped) source rows of `X`, scale each by its edge's weight, add into the
    destination rows of a zero array. -/
def aggregate (X : (⟨S50000x128, .f32⟩ : BufTy).Contents (Elt F)) (e : (⟨S2x800000, .i32⟩ : BufTy).Contents (Elt F))
    (w : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0
      (shapeCast _ (extractStridedSlice S1x800000 ![1, 0] e slices_S2x800000_S1x800000_1_0) shapeCasts_S1x800000_S800000))
    (mulf
      (Host.gather gather_S50000x128_S800000x1_S800000x128_1_0_n_n_0_1_1128 X
        (broadcastInDim S800000x1 ![0] bcast_S800000_S800000x1_0
          (select (cmpi .slt (srcOf e) (broadcastInDim S800000 ![] bcast_S_S800000 (constantI S_ 32 0#32)))
            (addi (srcOf e) (broadcastInDim S800000 ![] bcast_S_S800000 (constantI S_ 32 50000#32)))
            (srcOf e))))
      (broadcastInDim S800000x128 ![0, 1] bcast_S800000x1_S800000x128_0_1
        (broadcastInDim S800000x1 ![0] bcast_S800000_S800000x1_0 w)))

/-- The output layer: aggregated rows times weights, plus the bias vector on every row, rectified. -/
def dense2 (A : (⟨S50000x128, .f32⟩ : BufTy).Contents (Elt F)) (Wa : (⟨S128x128, .f32⟩ : BufTy).Contents (Elt F))
    (ba : (⟨S128, .f32⟩ : BufTy).Contents (Elt F)) : (⟨S50000x128, .f32⟩ : BufTy).Contents (Elt F) :=
  maximumf
    (addf (Host.dotGeneral dot_S50000x128_S128x128_S50000x128_1_0_0_1_n_n none A Wa)
      (broadcastInDim S50000x128 ![0, 1] bcast_S1x128_S50000x128_0_1 (broadcastInDim S1x128 ![1] bcast_S128_S1x128_1 ba)))
    (broadcastInDim S50000x128 ![] bcast_S_S50000x128 (constant S_ .f32 0x00000000#32))

/-- The whole function: project, pass messages, transform and rectify. -/
def out (f : (⟨S50000x256, .f32⟩ : BufTy).Contents (Elt F)) (e : (⟨S2x800000, .i32⟩ : BufTy).Contents (Elt F))
    (w : (⟨S800000, .f32⟩ : BufTy).Contents (Elt F)) (Wp : (⟨S256x128, .f32⟩ : BufTy).Contents (Elt F))
    (bp : (⟨S128, .f32⟩ : BufTy).Contents (Elt F)) (Wa : (⟨S128x128, .f32⟩ : BufTy).Contents (Elt F))
    (ba : (⟨S128, .f32⟩ : BufTy).Contents (Elt F)) : (⟨S50000x128, .f32⟩ : BufTy).Contents (Elt F) :=
  dense2 (aggregate (dense1 f Wp bp) e w) Wa ba

/-- The reference's run: its result array ends at `out` of the arguments' launch contents, the arguments unchanged
    (the generated run's composed term IS `out` unfolded). -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2⟩) (Cert.ReferenceIdeal.Value.run m ρ)

end Cert.ReferenceIdeal.Spec

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.TileDots.lean ====
/-
  The four matrix products of the two programs are PLAIN products.

  Each of the kernel's two tile products ([2000, 256] by [256, 128]; [2000, 128] by [128, 128]) and each of the plain
  program's two whole products ([50000, 256] by [256, 128]; [50000, 128] by [128, 128]) contracts the left operand's
  column with the right operand's row and keeps the left row and the right column: at `(r, c)` it reads `x (r, k)` and
  `w (k, c)`. That is all the row-by-row lemmas ask of a product's dimension numbers (`Cert.Lib.PlainDot`).
-/
import proofs.«168021_j88330297409788_1_alg».proof.Proof.Gen.KernelIdeal
import proofs.«168021_j88330297409788_1_alg».proof.Proof.Gen.ReferenceIdeal.Read
import proofs.«168021_j88330297409788_1_alg».proof.Proof.LibAffineRows

noncomputable section

namespace Cert.Dots

open Idealize.ShloMosaic Idealize.ShloMosaic.ValueIdx

/-! ## The kernel's tile products: on which axis each operand index moves -/

theorem tile1_l0 (i : Cert.KernelIdeal.S2000x128.Idx) (q : Cert.KernelIdeal.dot_S2000x256_S256x128_S2000x128_1_0_0_1_n_n.contr.Idx) :
    (Cert.KernelIdeal.dot_S2000x256_S256x128_S2000x128_1_0_0_1_n_n.lhsIdx i q 0).val = (i 0).val := by
  unfold DotDims.lhsIdx
  rw [dif_neg (show ¬(0 : Fin Cert.KernelIdeal.S2000x256.rank) ∈ Cert.KernelIdeal.dot_S2000x256_S256x128_S2000x128_1_0_0_1_n_n.lhsBatch by decide), dif_pos (show (0 : Fin Cert.KernelIdeal.S2000x256.rank) ∈ Cert.KernelIdeal.dot_S2000x256_S256x128_S2000x128_1_0_0_1_n_n.lhsNonContracting by decide)]
  rfl
theorem tile1_l1 (i : Cert.KernelIdeal.S2000x128.Idx) (q : Cert.KernelIdeal.dot_S2000x256_S256x128_S2000x128_1_0_0_1_n_n.contr.Idx) :
    (Cert.KernelIdeal.dot_S2000x256_S256x128_S2000x128_1_0_0_1_n_n.lhsIdx i q 1).val = (q ⟨0, by decide⟩).val :=
  Cert.KernelIdeal.dot_S2000x256_S256x128_S2000x128_1_0_0_1_n_n.lhsIdx_val_of_single rfl i q
theorem tile1_r0 (i : Cert.KernelIdeal.S2000x128.Idx) (q : Cert.KernelIdeal.dot_S2000x256_S256x128_S2000x128_1_0_0_1_n_n.contr.Idx) :
    (Cert.KernelIdeal.dot_S2000x256_S256x128_S2000x128_1_0_0_1_n_n.rhsIdx i q 0).val = (q ⟨0, by decide⟩).val :=
  Cert.KernelIdeal.dot_S2000x256_S256x128_S2000x128_1_0_0_1_n_n.rhsIdx_val_of_single rfl i q
theorem tile1_r1 (i : Cert.KernelIdeal.S2000x128.Idx) (q : Cert.KernelIdeal.dot_S2000x256_S256x128_S2000x128_1_0_0_1_n_n.contr.Idx) :
    (Cert.KernelIdeal.dot_S2000x256_S256x128_S2000x128_1_0_0_1_n_n.rhsIdx i q 1).val = (i 1).val := by
  unfold DotDims.rhsIdx
  rw [dif_neg (show ¬(1 : Fin Cert.KernelIdeal.S256x128.rank) ∈ Cert.KernelIdeal.dot_S2000x256_S256x128_S2000x128_1_0_0_1_n_n.rhsBatch by decide), dif_pos (show (1 : Fin Cert.KernelIdeal.S256x128.rank) ∈ Cert.KernelIdeal.dot_S2000x256_S256x128_S2000x128_1_0_0_1_n_n.rhsNonContracting by decide)]
  rfl

theorem tile2_l0 (i : Cert.KernelIdeal.S2000x128.Idx) (q : Cert.KernelIdeal.dot_S2000x128_S128x128_S2000x128_1_0_0_1_n_n.contr.Idx) :
    (Cert.KernelIdeal.dot_S2000x128_S128x128_S2000x128_1_0_0_1_n_n.lhsIdx i q 0).val = (i 0).val := by
  unfold DotDims.lhsIdx
  rw [dif_neg (show ¬(0 : Fin Cert.KernelIdeal.S2000x128.rank) ∈ Cert.KernelIdeal.dot_S2000x128_S128x128_S2000x128_1_0_0_1_n_n.lhsBatch by decide), dif_pos (show (0 : Fin Cert.KernelIdeal.S2000x128.rank) ∈ Cert.KernelIdeal.dot_S2000x128_S128x128_S2000x128_1_0_0_1_n_n.lhsNonContracting by decide)]
  rfl
theorem tile2_l1 (i : Cert.KernelIdeal.S2000x128.Idx) (q : Cert.KernelIdeal.dot_S2000x128_S128x128_S2000x128_1_0_0_1_n_n.contr.Idx) :
    (Cert.KernelIdeal.dot_S2000x128_S128x128_S2000x128_1_0_0_1_n_n.lhsIdx i q 1).val = (q ⟨0, by decide⟩).val :=
  Cert.KernelIdeal.dot_S2000x128_S128x128_S2000x128_1_0_0_1_n_n.lhsIdx_val_of_single rfl i q
theorem tile2_r0 (i : Cert.KernelIdeal.S2000x128.Idx) (q : Cert.KernelIdeal.dot_S2000x128_S128x128_S2000x128_1_0_0_1_n_n.contr.Idx) :
    (Cert.KernelIdeal.dot_S2000x128_S128x128_S2000x128_1_0_0_1_n_n.rhsIdx i q 0).val = (q ⟨0, by decide⟩).val :=
  Cert.KernelIdeal.dot_S2000x128_S128x128_S2000x128_1_0_0_1_n_n.rhsIdx_val_of_single rfl i q
theorem tile2_r1 (i : Cert.KernelIdeal.S2000x128.Idx) (q : Cert.KernelIdeal.dot_S2000x128_S128x128_S2000x128_1_0_0_1_n_n.contr.Idx) :
    (Cert.KernelIdeal.dot_S2000x128_S128x128_S2000x128_1_0_0_1_n_n.rhsIdx i q 1).val = (i 1).val := by
  unfold DotDims.rhsIdx
  rw [dif_neg (show ¬(1 : Fin Cert.KernelIdeal.S128x128.rank) ∈ Cert.KernelIdeal.dot_S2000x128_S128x128_S2000x128_1_0_0_1_n_n.rhsBatch by decide), dif_pos (show (1 : Fin Cert.KernelIdeal.S128x128.rank) ∈ Cert.KernelIdeal.dot_S2000x128_S128x128_S2000x128_1_0_0_1_n_n.rhsNonContracting by decide)]
  rfl

/-- The first region's tile product is plain. -/
theorem tile1 : Cert.Lib.PlainDot (R := 2000) (K := 256) (M := 128) Cert.KernelIdeal.dot_S2000x256_S256x128_S2000x128_1_0_0_1_n_n :=
  ⟨rfl, rfl, tile1_l0, tile1_l1, tile1_r0, tile1_r1⟩

/-- The second region's tile product is plain. -/
theorem tile2 : Cert.Lib.PlainDot (R := 2000) (K := 128) (M := 128) Cert.KernelIdeal.dot_S2000x128_S128x128_S2000x128_1_0_0_1_n_n :=
  ⟨rfl, rfl, tile2_l0, tile2_l1, tile2_r0, tile2_r1⟩

/-! ## The plain program's whole products (their axis facts are the generated read-at-an-index module's) -/

/-- The projection's whole product is plain. -/
theorem whole1 : Cert.Lib.PlainDot (R := 50000) (K := 256) (M := 128) Cert.ReferenceIdeal.dot_S50000x256_S256x128_S50000x128_1_0_0_1_n_n :=
  ⟨rfl, rfl, Cert.ReferenceIdeal.Read.lhs_main_v0_0, Cert.ReferenceIdeal.Read.lhs_main_v0_1, Cert.ReferenceIdeal.Read.rhs_main_v0_0, Cert.ReferenceIdeal.Read.rhs_main_v0_1⟩

/-- The output layer's whole product is plain. -/
theorem whole2 : Cert.Lib.PlainDot (R := 50000) (K := 128) (M := 128) Cert.ReferenceIdeal.dot_S50000x128_S128x128_S50000x128_1_0_0_1_n_n :=
  ⟨rfl, rfl, Cert.ReferenceIdeal.Read.lhs_main_v21_0, Cert.ReferenceIdeal.Read.lhs_main_v21_1, Cert.ReferenceIdeal.Read.rhs_main_v21_0, Cert.ReferenceIdeal.Read.rhs_main_v21_1⟩

end Cert.Dots

end
-- ==== Proof.LibAffineVecRows.lean ====
/-
  A dense layer read row by row, when the bias reaches the tile's body as a vector.

  The tile's body loads the bias as a vector `[M]`, gives it a leading unit axis (`[M]` to `[1, M]`) and spreads that one
  row over the tile's `R` rows; the plain program spreads the same vector over all `N` rows of the whole product. At
  `(r, q)` both read the vector at `q` (`bias_vec_rows_apply`), so, the two matrix products being the textbook sum over
  the contracted index, row `r` of the tile's `xb · w + b` is row `n r` of the whole `X · w + b` as soon as row `r` of the
  tile is row `n r` of `X` (`affine_vec_rows`). A rectifier `max (·) 0` applied on both sides keeps the equation
  (`relu_affine_vec_rows`): the tile spreads the scalar zero, the plain program a rank-0 zero array, and both read the
  extended real the zero word encodes. Nothing here depends on the sizes.
-/
import proofs.«168021_j88330297409788_1_alg».proof.Proof.LibAffineRows

noncomputable section

namespace Cert.Lib

open Idealize.ShloMosaic Idealize.ShloMosaic.ValueIdx

variable {R K M : ℕ}

/-- A vector `[M]` given a leading unit axis and spread over `R` rows reads, at `(r, q)`, the vector at `q`. -/
theorem bias_vec_rows_apply (b : FVec Ideal ⟨1, ![M]⟩ .f32) (hsc : (⟨1, ![M]⟩ : Shape).ShapeCasts ⟨2, ![1, M]⟩)
    (hbc : (⟨2, ![1, M]⟩ : Shape).Broadcasts ⟨2, ![R, M]⟩) (r : Fin R) (q : Fin M) :
    broadcastTo ⟨2, ![R, M]⟩ (shapeCast ⟨2, ![1, M]⟩ b hsc) hbc (ix2 r q) = b (ix1 q) := by
  rw [broadcastTo_1b_ab_apply]
  refine (shapeCast_addUnit_apply ![M] b hsc (ix2 (0 : Fin 1) q)).trans (congrArg b ?_)
  funext a
  match a with
  | ⟨0, _⟩ => rfl

/-- ROW BY ROW, the bias a vector: where row `r` of the tile `xb` is row `n r` of `X`, the tile's `xb · w + b` at `(r, q)`
    is the whole `X · w + b` at `(n r, q)`. -/
theorem affine_vec_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b : FVec Ideal ⟨1, ![M]⟩ .f32) (n : Fin R → Fin N)
    (hx : ∀ r k, xb (ix2 r k) = X (ix2 (n r) k))
    (ht : FTy.bits .bf16 < FTy.bits .f32) (hsc : (⟨1, ![M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, bias_vec_rows_apply]
  exact congrArg (· + b (ix1 q)) (Finset.sum_congr rfl fun k _ => by rw [hx])

/-- A rank-0 array spread over a whole shape reads, everywhere, its one entry. -/
theorem scalar_spread_apply {t : Shape} (z : FVec Ideal ⟨0, ![]⟩ .f32)
    (h0 : (⟨0, ![]⟩ : Shape).BroadcastsInDim t (![] : Fin 0 → Fin t.rank)) (i : t.Idx) :
    broadcastInDim t ![] h0 z i = z ix0 :=
  broadcastInDim_apply _ h0 z i ix0 (fun a => a.elim0)

/-- The same after the rectifier: the tile's `max (xb · w + b) 0` at `(r, q)` is the whole `max (X · w + b) 0` at
    `(n r, q)`, the tile's zero a spread scalar and the plain program's a spread rank-0 array of the same word. -/
theorem relu_affine_vec_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b : FVec Ideal ⟨1, ![M]⟩ .f32) (n : Fin R → Fin N)
    (hx : ∀ r k, xb (ix2 r k) = X (ix2 (n r) k))
    (ht : FTy.bits .bf16 < FTy.bits .f32) (hsc : (⟨1, ![M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2))
    (h0 : (⟨0, ![]⟩ : Shape).BroadcastsInDim ⟨2, ![N, M]⟩ (![] : Fin 0 → Fin 2)) (r : Fin R) (q : Fin M) :
    maximumf (addf (matmul dB none (truncf .bf16 xb ht) (truncf .bf16 w ht) (constant ⟨2, ![R, M]⟩ .f32 0x00000000#32))
        (broadcastTo ⟨2, ![R, M]⟩ (shapeCast ⟨2, ![1, M]⟩ b hsc) hbc))
        (broadcast ⟨2, ![R, M]⟩ (Scalar.ofBits (F := Ideal) .f32 0x00000000#32)) (ix2 r q)
      = maximumf (addf (Host.dotGeneral dW none X w)
          (broadcastInDim ⟨2, ![N, M]⟩ ![0, 1] h2 (broadcastInDim ⟨2, ![1, M]⟩ ![1] h1 b)))
          (broadcastInDim ⟨2, ![N, M]⟩ ![] h0 (constant (F := Ideal) ⟨0, ![]⟩ .f32 0x00000000#32)) (ix2 (n r) q) := by
  rw [maximumf_apply, maximumf_apply, affine_vec_rows hB hW xb X w b n hx ht hsc hbc h1 h2 r q, scalar_spread_apply]
  rfl

end Cert.Lib

end
-- ==== Proof.Regions.lean ====
/-
  EACH REGION'S OUTPUT ARRAY AS ONE WHOLE-ARRAY FUNCTION of the arrays the region finds.

  Both regions walk the 50000 rows in 25 tiles of 2000. At tile `t` the row window's block is rows
  `2000 t … 2000 t + 1999` of its array, the weight and bias windows' blocks are their whole arrays, and the body
  stores into the output's block the tile's rows times the weights plus the bias (the second region: rectified).
  Row `r` of that tile is row `2000 t + r` of the whole dense layer (the row-by-row lemmas), so what point `t` writes
  back is block `t` of ONE array: `dense1`, respectively `dense2`, of the arrays as the region finds them. The 25 blocks
  tile the rows (row `i` is in block `i / 2000`), so the output array ends holding exactly that array.
-/
import proofs.«168021_j88330297409788_1_alg».proof.Proof.Gen.KernelIdeal.Frame
import proofs.«168021_j88330297409788_1_alg».proof.Proof.Spec
import proofs.«168021_j88330297409788_1_alg».proof.Proof.TileDots
import proofs.«168021_j88330297409788_1_alg».proof.Proof.LibAffineVecRows
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-! ## One tile against the whole layer, over plain arrays -/

/-- FIRST LAYER. If the tile `x` holds rows `2000 tv …` of `f` and the weight and bias blocks are the whole weight and
    bias arrays, the body's payload at `y` is the whole projection at the index `i` with row `2000 tv + y₀` and column `y₁`. -/
theorem tile1_eq (x : Vec Ideal S2000x256 .f32) (w' : Vec Ideal S256x128 .f32) (b' : Vec Ideal S128 .f32)
    (f : (⟨Cert.ReferenceIdeal.S50000x256, .f32⟩ : BufTy).Contents (Elt Ideal)) (w : Vec Ideal S256x128 .f32) (b : Vec Ideal S128 .f32)
    (tv : ℕ) (htv : tv < 25)
    (hx : ∀ (r : Fin 2000) (k : Fin 256) (i : Cert.ReferenceIdeal.S50000x256.Idx), (i 0).val = tv * 2000 + r.val → (i 1).val = k.val →
      x (ix2 r k) = f i)
    (hw : w' = w) (hb : b' = b)
    (y : S2000x128.Idx) (i : Cert.ReferenceIdeal.S50000x128.Idx) (h0 : (i 0).val = tv * 2000 + (y 0).val) (h1 : (i 1).val = (y 1).val) :
    k0_pay1 x w' b' y = Cert.ReferenceIdeal.Spec.dense1 f w b i := by
  subst hw hb
  have hlt : ∀ r : Fin 2000, tv * 2000 + r.val < 50000 := fun r => by have := r.isLt; omega
  obtain ⟨r, q, rfl⟩ : ∃ (r : Fin 2000) (q : Fin 128), y = ix2 r q := ⟨y 0, y 1, eq_ix2 y⟩
  have hi : i = ix2 (⟨tv * 2000 + r.val, hlt r⟩ : Fin 50000) q :=
    funext fun a => Fin.ext (by match a with | ⟨0, _⟩ => exact h0 | ⟨1, _⟩ => exact h1)
  rw [hi]
  unfold k0_pay1 Cert.ReferenceIdeal.Spec.dense1
  exact Cert.Lib.affine_vec_rows Cert.Dots.tile1 Cert.Dots.whole1 x f w' b'
    (fun r => ⟨tv * 2000 + r.val, hlt r⟩) (fun r k => hx r k _ rfl rfl) _ _ _ _ _ r q

/-- SECOND LAYER, the same with the rectifier (the body's shape cast of the tile to its own shape is the identity). -/
theorem tile2_eq (x : Vec Ideal S2000x128 .f32) (w' : Vec Ideal S128x128 .f32) (b' : Vec Ideal S128 .f32)
    (f : (⟨Cert.ReferenceIdeal.S50000x128, .f32⟩ : BufTy).Contents (Elt Ideal)) (w : Vec Ideal S128x128 .f32) (b : Vec Ideal S128 .f32)
    (tv : ℕ) (htv : tv < 25)
    (hx : ∀ (r : Fin 2000) (k : Fin 128) (i : Cert.ReferenceIdeal.S50000x128.Idx), (i 0).val = tv * 2000 + r.val → (i 1).val = k.val →
      x (ix2 r k) = f i)
    (hw : w' = w) (hb : b' = b)
    (y : S2000x128.Idx) (i : Cert.ReferenceIdeal.S50000x128.Idx) (h0 : (i 0).val = tv * 2000 + (y 0).val) (h1 : (i 1).val = (y 1).val) :
    k1_pay1 x w' b' y = Cert.ReferenceIdeal.Spec.dense2 f w b i := by
  subst hw hb
  have hlt : ∀ r : Fin 2000, tv * 2000 + r.val < 50000 := fun r => by have := r.isLt; omega
  obtain ⟨r, q, rfl⟩ : ∃ (r : Fin 2000) (q : Fin 128), y = ix2 r q := ⟨y 0, y 1, eq_ix2 y⟩
  have hi : i = ix2 (⟨tv * 2000 + r.val, hlt r⟩ : Fin 50000) q :=
    funext fun a => Fin.ext (by match a with | ⟨0, _⟩ => exact h0 | ⟨1, _⟩ => exact h1)
  rw [hi]
  unfold k1_pay1 Cert.ReferenceIdeal.Spec.dense2
  rw [shapeCast_self]
  exact Cert.Lib.relu_affine_vec_rows Cert.Dots.tile2 Cert.Dots.whole2 x f w' b'
    (fun r => ⟨tv * 2000 + r.val, hlt r⟩) (fun r k => hx r k _ rfl rfl) _ _ _ _ _ _ r q

/-! ## Region 0: the windows' blocks, what a point writes back, the cover, the array after the run -/

section Region0
variable (V : (c : Dev nD) → (b : Ref sig .tc) → Buf (Elt Ideal) ((c : Thread nD τ).loc b))

/-- The printed index maps, decided over the 25 points: the row window and the output window sit at block `(t, 0)`, the
    weight and bias windows at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- The row window's block at point `t` is rows `2000 t … 2000 t + 1999` of its array. -/
theorem rows0 (c : Dev nD) (t : Fin cfg0.N) (r : Fin 2000) (k : Fin 256) (i : Cert.ReferenceIdeal.S50000x256.Idx)
    (h0 : (i 0).val = t.val * 2000 + r.val) (h1 : (i 1).val = k.val) :
    (iblk0 V c 0 t : Vec Ideal S2000x256 .f32) (ix2 r k) = V c main_arg0 i := by
  obtain ⟨e0, e1, -⟩ := idx0 t
  show V c main_arg0 (((cfg0.win 0).blk t).view.emb (ix2 r k)) = V c main_arg0 i
  refine congrArg (fun z => V c main_arg0 z) ?_
  funext a; apply Fin.ext
  match a with
  | ⟨0, _⟩ => show win0_0.index t (0 : Fin 2) * 2000 + 1 * r.val = (i 0).val; omega
  | ⟨1, _⟩ => show win0_0.index t (1 : Fin 2) * 256 + 1 * k.val = (i 1).val; omega

/-- The weight window's block is, at every point, the whole weight array. -/
theorem weights0 (c : Dev nD) (t : Fin cfg0.N) : (iblk0 V c 1 t : Vec Ideal S256x128 .f32) = V c main_arg3 := by
  obtain ⟨-, -, e2, e3, -⟩ := idx0 t
  funext y
  show V c main_arg3 (((cfg0.win 1).blk t).view.emb y) = V c main_arg3 y
  refine congrArg (fun z => V c main_arg3 z) ?_
  funext a; apply Fin.ext
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- The bias window's block is, at every point, the whole bias vector. -/
theorem bias0 (c : Dev nD) (t : Fin cfg0.N) : (iblk0 V c 2 t : Vec Ideal S128 .f32) = V c main_arg4 := by
  obtain ⟨-, -, -, -, e4, -⟩ := idx0 t
  funext y
  show V c main_arg4 (((cfg0.win 2).blk t).view.emb y) = V c main_arg4 y
  refine congrArg (fun z => V c main_arg4 z) ?_
  funext a; apply Fin.ext
  match a with
  | ⟨0, _⟩ => show win0_2.index t (0 : Fin 1) * 128 + 1 * (y 0).val = (y 0).val; omega

/-- WHAT POINT `t` WRITES BACK is block `t` of the whole layer applied to the arrays the region finds. -/
theorem flushed0 (c : Dev nD) (t : Fin cfg0.N) :
    (dat0 V c).flushed 3 t
      = ((cfg0.win 3).blk t).view.read (Elt Ideal) (Cert.ReferenceIdeal.Spec.dense1 (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S2000x256) hz2, View.ld_unit_zero (S := S256x128) hz2, View.ld_unit_zero (S := S128) hz1]
  obtain ⟨-, -, -, -, -, e5, e6⟩ := idx0 t
  have ht : t.val < 25 := lt_of_lt_of_eq t.isLt (show cfg0.N = 25 from N_0)
  funext j
  show k0_pay1 (iblk0 V c 0 t) (iblk0 V c 1 t) (iblk0 V c 2 t) j
    = Cert.ReferenceIdeal.Spec.dense1 (V c main_arg0) (V c main_arg3) (V c main_arg4) (((cfg0.win 3).blk t).view.emb j)
  refine tile1_eq (iblk0 V c 0 t) (iblk0 V c 1 t) (iblk0 V c 2 t) (V c main_arg0) (V c main_arg3) (V c main_arg4) t.val ht
    (fun r k i h0 h1 => rows0 V c t r k i h0 h1) (weights0 V c t) (bias0 V c t) j _ ?_ ?_
  · show win0_3.index t (0 : Fin 2) * 2000 + 1 * (j 0).val = t.val * 2000 + (j 0).val; omega
  · show win0_3.index t (1 : Fin 2) * 128 + 1 * (j 1).val = (j 1).val; omega

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v0).slice (win0_3.rect t)).set ↔ _
  rw [View.set_slice_whole, Rect.mem_set_unit]
  exact Iff.rfl

/-- THE COVER: row `i₀` lies in the block of point `i₀ / 2000`, which is written back. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, htv⟩ : ∃ t : Fin cfg0.N, t.val = (i 0).val / 2000 :=
    ⟨⟨(i 0).val / 2000, by rw [show cfg0.N = 25 from N_0]; omega⟩, rfl⟩
  obtain ⟨-, -, -, -, -, e5, e6⟩ := idx0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE OUTPUT ARRAY after the region's run: the whole layer applied to the arrays the region finds. -/
theorem final0 (c : Dev nD) :
    (dat0 V c).arrAt 3 cfg0.N = Cert.ReferenceIdeal.Spec.dense1 (V c main_arg0) (V c main_arg3) (V c main_arg4) :=
  (dat0 V c).arrAt_eq_of_cover 3 _ (fun t _ => flushed0 V c t) cover0

end Region0

/-! ## Region 1: the windows' blocks, what a point writes back, the cover, the array after the run -/

section Region1
variable (V : (c : Dev nD) → (b : Ref sig .tc) → Buf (Elt Ideal) ((c : Thread nD τ).loc b))

/-- The printed index maps, decided over the 25 points: the row window and the output window sit at block `(t, 0)`, the
    weight and bias windows at block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- The row window's block at point `t` is rows `2000 t … 2000 t + 1999` of its array. -/
theorem rows1 (c : Dev nD) (t : Fin cfg1.N) (r : Fin 2000) (k : Fin 128) (i : Cert.ReferenceIdeal.S50000x128.Idx)
    (h0 : (i 0).val = t.val * 2000 + r.val) (h1 : (i 1).val = k.val) :
    (iblk1 V c 0 t : Vec Ideal S2000x128 .f32) (ix2 r k) = V c main_v17 i := by
  obtain ⟨e0, e1, -⟩ := idx1 t
  show V c main_v17 (((cfg1.win 0).blk t).view.emb (ix2 r k)) = V c main_v17 i
  refine congrArg (fun z => V c main_v17 z) ?_
  funext a; apply Fin.ext
  match a with
  | ⟨0, _⟩ => show win1_0.index t (0 : Fin 2) * 2000 + 1 * r.val = (i 0).val; omega
  | ⟨1, _⟩ => show win1_0.index t (1 : Fin 2) * 128 + 1 * k.val = (i 1).val; omega

/-- The weight window's block is, at every point, the whole weight array. -/
theorem weights1 (c : Dev nD) (t : Fin cfg1.N) : (iblk1 V c 1 t : Vec Ideal S128x128 .f32) = V c main_arg5 := by
  obtain ⟨-, -, e2, e3, -⟩ := idx1 t
  funext y
  show V c main_arg5 (((cfg1.win 1).blk t).view.emb y) = V c main_arg5 y
  refine congrArg (fun z => V c main_arg5 z) ?_
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The bias window's block is, at every point, the whole bias vector. -/
theorem bias1 (c : Dev nD) (t : Fin cfg1.N) : (iblk1 V c 2 t : Vec Ideal S128 .f32) = V c main_arg6 := by
  obtain ⟨-, -, -, -, e4, -⟩ := idx1 t
  funext y
  show V c main_arg6 (((cfg1.win 2).blk t).view.emb y) = V c main_arg6 y
  refine congrArg (fun z => V c main_arg6 z) ?_
  funext a; apply Fin.ext
  match a with
  | ⟨0, _⟩ => show win1_2.index t (0 : Fin 1) * 128 + 1 * (y 0).val = (y 0).val; omega

/-- WHAT POINT `t` WRITES BACK is block `t` of the whole layer applied to the arrays the region finds. -/
theorem flushed1 (c : Dev nD) (t : Fin cfg1.N) :
    (dat1 V c).flushed 3 t
      = ((cfg1.win 3).blk t).view.read (Elt Ideal) (Cert.ReferenceIdeal.Spec.dense2 (V c main_v17) (V c main_arg5) (V c main_arg6)) := by
  show (cfg1.win 3).cut (grid1.coords t) ((dat1 V c).after 3 t) = _
  rw [after1_3]
  unfold out1_3
  rw [View.canon_unit_zero hz2]
  simp only [View.ld_unit_zero (S := S2000x128) hz2, View.ld_unit_zero (S := S128x128) hz2, View.ld_unit_zero (S := S128) hz1]
  obtain ⟨-, -, -, -, -, e5, e6⟩ := idx1 t
  have ht : t.val < 25 := lt_of_lt_of_eq t.isLt (show cfg1.N = 25 from N_1)
  funext j
  show k1_pay1 (iblk1 V c 0 t) (iblk1 V c 1 t) (iblk1 V c 2 t) j
    = Cert.ReferenceIdeal.Spec.dense2 (V c main_v17) (V c main_arg5) (V c main_arg6) (((cfg1.win 3).blk t).view.emb j)
  refine tile2_eq (iblk1 V c 0 t) (iblk1 V c 1 t) (iblk1 V c 2 t) (V c main_v17) (V c main_arg5) (V c main_arg6) t.val ht
    (fun r k i h0 h1 => rows1 V c t r k i h0 h1) (weights1 V c t) (bias1 V c t) j _ ?_ ?_
  · show win1_3.index t (0 : Fin 2) * 2000 + 1 * (j 0).val = t.val * 2000 + (j 0).val; omega
  · show win1_3.index t (1 : Fin 2) * 128 + 1 * (j 1).val = (j 1).val; omega

/-- An index of the output array is in point `t`'s block iff each coordinate is in the block's range on its axis. -/
theorem mem_blk1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v18).slice (win1_3.rect t)).set ↔ _
  rw [View.set_slice_whole, Rect.mem_set_unit]
  exact Iff.rfl

/-- THE COVER: row `i₀` lies in the block of point `i₀ / 2000`, which is written back. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, htv⟩ : ∃ t : Fin cfg1.N, t.val = (i 0).val / 2000 :=
    ⟨⟨(i 0).val / 2000, by rw [show cfg1.N = 25 from N_1]; omega⟩, rfl⟩
  obtain ⟨-, -, -, -, -, e5, e6⟩ := idx1 t
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- THE OUTPUT ARRAY after the region's run: the whole layer applied to the arrays the region finds. -/
theorem final1 (c : Dev nD) :
    (dat1 V c).arrAt 3 cfg1.N = Cert.ReferenceIdeal.Spec.dense2 (V c main_v17) (V c main_arg5) (V c main_arg6) :=
  (dat1 V c).arrAt_eq_of_cover 3 _ (fun t _ => flushed1 V c t) cover1

end Region1

end Cert.KernelIdeal.Regions

end
-- ==== Proof.KernelValue.lean ====
/-
  THE KERNEL PROGRAM'S RESULT ARRAY is `out` of the arguments.

  The run's buffer contents are a fold through @main: the launch memory; after the first region, its output array at
  what the region's write-backs leave; after the host stretch, each of its results at the stretch's operations applied
  to what was there; after the second region, its output array at what its write-backs leave. Read back from the end:
  the result array is the output layer `dense2` of the second region's three arrays as it finds them; of those the
  aggregated rows are the host stretch's last result, which is `aggregate` of the first region's output array and of
  the edge arrays (the stretch is the plain program's message passing, operation for operation); the first region's
  output array is the projection `dense1` of the launch contents; and the weights, biases and edge arrays are read by
  nobody's write on the way, so they are the launch contents. Composed: `out`.
-/
import proofs.«168021_j88330297409788_1_alg».proof.Proof.KernelRun
import proofs.«168021_j88330297409788_1_alg».proof.Proof.Regions
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- After the first region its output array holds the projection of the launch contents. -/
theorem projected (c : Dev nD) :
    W1 m ρ c (Proc.devRef .tc main_v0)
      = Cert.ReferenceIdeal.Spec.dense1 (m ((c : Thread nD τ).loc main_arg0)) (m ((c : Thread nD τ).loc main_arg3)) (m ((c : Thread nD τ).loc main_arg4)) :=
  (W1_arr m ρ c 3).trans (Cert.KernelIdeal.Regions.final0 (V0 m ρ) c)

/-- The first region writes neither edge array. -/
theorem edges_kept (c : Dev nD) : W1 m ρ c (Proc.devRef .tc main_arg1) = m ((c : Thread nD τ).loc main_arg1) :=
  W1_of_ne m ρ c main_arg1 (by decide)
theorem edge_weights_kept (c : Dev nD) : W1 m ρ c (Proc.devRef .tc main_arg2) = m ((c : Thread nD τ).loc main_arg2) :=
  W1_of_ne m ρ c main_arg2 (by decide)

/-- The host stretch's last result is the message passing over the first region's output and the edge arrays. -/
theorem aggregated (c : Dev nD) :
    V2 m ρ c main_v17
      = Cert.ReferenceIdeal.Spec.aggregate (W1 m ρ c (Proc.devRef .tc main_v0)) (W1 m ρ c (Proc.devRef .tc main_arg1)) (W1 m ρ c (Proc.devRef .tc main_arg2)) := by
  show StableHlo.after hostOps1 (W1 m ρ c) (Proc.devRef .tc main_v17) = _
  after_results_simp <;> rfl

/-- The second region finds the output layer's weights and bias at their launch contents: it does not write them
    (its array for an input window ends as entered), and the run's last contents have them as launched. -/
theorem out_weights (c : Dev nD) : V2 m ρ c main_arg5 = m ((c : Thread nD τ).loc main_arg5) :=
  ((W3_arr m ρ c 1).trans (((dat1 (V2 m ρ) c).arrAt_in 1 rfl _).trans (A_eq1 (V2 m ρ) c 1))).symm.trans (W3_main_arg5 m ρ c)
theorem out_bias (c : Dev nD) : V2 m ρ c main_arg6 = m ((c : Thread nD τ).loc main_arg6) :=
  ((W3_arr m ρ c 2).trans (((dat1 (V2 m ρ) c).arrAt_in 2 rfl _).trans (A_eq1 (V2 m ρ) c 2))).symm.trans (W3_main_arg6 m ρ c)

/-- THE RESULT: the last boundary's contents at the result array are `out` of the arguments' launch contents. -/
theorem result_eq (c : Dev nD) :
    W3 m ρ c (Proc.devRef .tc main_v18)
      = Cert.ReferenceIdeal.Spec.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine (W3_arr m ρ c 3).trans ((Cert.KernelIdeal.Regions.final1 (V2 m ρ) c).trans ?_)
  rw [aggregated m ρ c, out_weights m ρ c, out_bias m ρ c, projected m ρ c, edges_kept m ρ c, edge_weights_kept m ρ c]
  rfl

/-- THE RUN, READ: every weakly fair execution of the idealized kernel program ends with its result array at `out` of
    the arguments' launch contents and the arguments unchanged. -/
theorem run_out : θ_run defs (onTc (τ := τ) (main (F := Ideal))) ⟨m, fun _ => 0, ρ⟩ (fun r => ∀ c : Dev nD,
      r.2.mem ((c.tc : Thread nD τ).loc main_v18)
        = Cert.ReferenceIdeal.Spec.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c), (h c).2⟩)
    (Cert.KernelIdeal.Named.run_named (F := Ideal) m ρ)

end Cert.KernelIdeal.Result

end
-- ==== Proof.lean ====
/-
  A two-layer graph network step — project the node features, pass edge-weighted messages, transform and rectify —
  computed by two row-tiled kernels around host message passing, against the plain program.

  Over the extended reals both programs compute ONE function `out` of the seven arguments
  (Proof/Spec.lean): `dense2 (aggregate (dense1 f Wp bp) e w) Wa ba`. The plain program's run ends at it by unfolding
  (`Spec.run_out`). The kernel program's does because each of its two regions leaves in its output array the whole
  dense layer of the arrays it finds — every tile's rows times the weights plus the bias being those rows of the whole
  product plus the bias, narrowing to bf16 the identity and both products the textbook sum (Proof/Regions.lean) —
  and the host operations between the regions are the plain program's message passing, operation for operation
  (Proof/KernelValue.lean). No law of the extended reals beyond reading both sides at an index is used, so the
  finiteness of the inputs is never opened. The kernel programs' frames are the generated ones; the plain program's
  is its run with the result dropped; the idealization rewrote nothing, so `preserves` is `True`.
-/
import proofs.«168021_j88330297409788_1_alg».proof.Defs
import proofs.«168021_j88330297409788_1_alg».proof.Proof.Gen.Kernel
import proofs.«168021_j88330297409788_1_alg».proof.Proof.Gen.Kernel.Frame
import proofs.«168021_j88330297409788_1_alg».proof.Proof.Gen.KernelIdeal
import proofs.«168021_j88330297409788_1_alg».proof.Proof.Gen.KernelIdeal.Frame
import proofs.«168021_j88330297409788_1_alg».proof.Proof.Gen.ReferenceIdeal
import proofs.«168021_j88330297409788_1_alg».proof.Proof.Gen.ReferenceIdeal.Run
import proofs.«168021_j88330297409788_1_alg».proof.Proof.Gen.Pre_finite_inputs
import proofs.«168021_j88330297409788_1_alg».proof.Proof.Spec
import proofs.«168021_j88330297409788_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The plain program runs and keeps its arguments: its generated run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with their result arrays at `out` of those arguments. -/
theorem algebraic : Cert.algebraic_KernelIdeal_ReferenceIdeal := by
  intro m ρ m' ρ' _ hagree
  refine ⟨fun c => Cert.ReferenceIdeal.Spec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Result.run_out m ρ, ?_⟩
  refine (θ_run Cert.ReferenceIdeal.defs _ _).mono (fun _ h c => ⟨(h c).1.trans ?_, (h c).2⟩)
    (Cert.ReferenceIdeal.Spec.run_out (F := Ideal) m' ρ')
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
